-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S512x3200 : Shape := ⟨2, ![512, 3200]⟩
abbrev S512x1 : Shape := ⟨2, ![512, 1]⟩
abbrev S512 : Shape := ⟨1, ![512]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x3200, .f32⟩
  | .local _ .vmem, ⟨1, _⟩ => ⟨S512x3200, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c9_i32 : BitVec 32 := 9#32
  let v41 : BitVec 1 := Scalar.cmpi .eq arg1 c9_i32
  let v42 : BitVec 32 := Scalar.extui v41
  let c0_i32_19 : BitVec 32 := 0#32
  let v43 : BitVec 1 := Scalar.cmpi .ne v42 c0_i32_19
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3200_S512x3200_0_0 : ∀ a, (![0, 0] : Fin 2 → Nat) a + S512x3200.size a ≤ S512x3200.size a
  h_S512x3200 : 0 < S512x3200.numel
  reduces_S512x3200_S512 : S512x3200.Reduces [1] S512
  shapeCasts_S512_S512x1 : S512.ShapeCasts S512x1
  broadcasts_S512x1_S512x3200 : S512x1.Broadcasts S512x3200
  iota_S512x3200_d1_w32 : S512x3200.Iotas .tc 32 [1]
  shapeCasts_S8192x1_S8192 : S8192x1.ShapeCasts S8192
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S8192x32000.size a
  hwx0_0 : ∀ i : grid0.Coords, EltTy.bits .f32 = 32 ∨ (Rect.block (s := S8192x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x32000, .f32⟩
  | .hbm, ⟨9, _⟩ => ⟨S8192x32000, .f32⟩
  | .hbm, ⟨10, _⟩ => ⟨S8192x32000, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x32000, .f32⟩
  | .hbm, ⟨16, _⟩ => ⟨S8192x32000, .f32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S8192x1x1, .i32⟩
  | .hbm, ⟨26, _⟩ => ⟨S1, .i32⟩
  | .hbm, ⟨27, _⟩ => ⟨S_, .i32⟩
  | .hbm, ⟨28, _⟩ => ⟨S8192x1x1, .i32⟩
  | .hbm, ⟨29, _⟩ => ⟨S8192x1x1, .i1⟩
  | .hbm, ⟨30, _⟩ => ⟨S1x1x1, .i32⟩
  | .hbm, ⟨31, _⟩ => ⟨S8192x1x1, .i32⟩
  | .hbm, ⟨32, _⟩ => ⟨S8192x1x1, .i1⟩
  | .hbm, ⟨33, _⟩ => ⟨S8192x1x1, .i1⟩
  | .hbm, ⟨34, _⟩ => ⟨S_, .i1⟩
  | .hbm, ⟨35, _⟩ => ⟨S8192x1, .i1⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_cst_0 : Ref sig .tc := ⟨.hbm, 43, rfl⟩
abbrev main_v5 : Ref sig .tc := ⟨.hbm, 44, rfl⟩
abbrev main_v6 : Ref sig .tc := ⟨.hbm, 45, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Spec.lean ====
/-
  The mathematics of a streamed softmax cross entropy, on the extended reals.

  A row `f 0, …, f (N-1)` of real logits and a target column `t`. The loss of the row is
  `log (∑ j, exp (f j)) - f t`. A streamed evaluation walks the row tile by tile and carries three numbers:
  a shift `m`, the sum `l` of `exp (f j - m)` over the columns seen so far, and the sum `s` of the
  entries whose column is the target. Whatever real shift is carried, `m + log l` is the log-sum-exp of
  the columns seen, which is why neither the streamed nor the one-pass evaluation needs the other's shift.
-/
import Idealize.ShloMosaic.PureOps.Ideal
import Mathlib.Analysis.SpecialFunctions.Log.Basic
import Mathlib.Algebra.BigOperators.Intervals

noncomputable section

namespace Cert.CrossEntropy

open Idealize.ShloMosaic
open scoped BigOperators

/-- The log-sum-exp of the first `n` entries of a real sequence. -/
def lse (f : ℕ → ℝ) (n : ℕ) : ℝ := Real.log (∑ j ∈ Finset.range n, Real.exp (f j))

/-- The loss of a row: its log-sum-exp less the target's logit. -/
def rowLoss (f : ℕ → ℝ) (t n : ℕ) : ℝ := lse f n - f t

/-- What the streamed evaluation carries after the first `n` columns: a REAL shift `μ`, the shifted exponential sum
    and the picked sum, as extended reals. -/
def Streamed (f : ℕ → ℝ) (t n : ℕ) (m l s : EReal) : Prop :=
  ∃ μ : ℝ, m = (μ : EReal) ∧ l = ((∑ j ∈ Finset.range n, Real.exp (f j - μ) : ℝ) : EReal)
    ∧ s = ((∑ j ∈ Finset.range n, if j = t then f j else 0 : ℝ) : EReal)

/-- The new shift: the old one against the tile's maximum (a fold of `max` from `-∞`). -/
def stepM {w : ℕ} (m : EReal) (a : Fin w → EReal) : EReal := max m ((Finset.univ : Finset (Fin w)).fold max ⊥ a)

/-- The new exponential sum: the old one rescaled to the new shift, plus the tile's. -/
def stepL {w : ℕ} (m l : EReal) (a : Fin w → EReal) : EReal :=
  Ideal.exp (m - stepM m a) * l + ∑ q : Fin w, Ideal.exp (a q - stepM m a)

/-- The new picked sum: the old one plus the tile's entries on the columns the mask keeps. -/
def stepS {w : ℕ} (s : EReal) (a : Fin w → EReal) (hit : Fin w → Bool) : EReal :=
  s + ∑ q : Fin w, if hit q then a q else 0

/-- The extended real of a finite real sum is the sum of the extended reals. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A tile's shifted exponentials, summed lane by lane, are the real sum over its columns. -/
theorem tile_exp_sum (f : ℕ → ℝ) (n w : ℕ) (ν : ℝ) :
    ∑ q : Fin w, Ideal.exp (((f (n + q.val) : ℝ) : EReal) - (ν : EReal))
      = ((∑ j ∈ Finset.range w, Real.exp (f (n + j) - ν) : ℝ) : EReal) := by
  have h : ∀ q : Fin w, Ideal.exp (((f (n + q.val) : ℝ) : EReal) - (ν : EReal))
      = ((Real.exp (f (n + q.val) - ν) : ℝ) : EReal) := fun q => by
    rw [← EReal.coe_sub, Ideal.exp_coe]
  rw [Finset.sum_congr rfl (fun q _ => h q), ← coe_sum,
    Fin.sum_univ_eq_sum_range (fun j => Real.exp (f (n + j) - ν)) w]

/-- A tile's entries on the lanes the mask keeps, summed lane by lane, are the real picked sum over its columns. -/
theorem tile_pick_sum (f : ℕ → ℝ) (t n w : ℕ) (hit : Fin w → Bool)
    (hhit : ∀ q : Fin w, hit q = true ↔ n + q.val = t) :
    ∑ q : Fin w, (if hit q then ((f (n + q.val) : ℝ) : EReal) else 0)
      = ((∑ j ∈ Finset.range w, if n + j = t then f (n + j) else 0 : ℝ) : EReal) := by
  have h : ∀ q : Fin w, (if hit q then ((f (n + q.val) : ℝ) : EReal) else 0)
      = (((if n + q.val = t then f (n + q.val) else 0) : ℝ) : EReal) := fun q => by
    by_cases hq : n + q.val = t
    · rw [if_pos ((hhit q).2 hq), if_pos hq]
    · rw [if_neg (fun hh => hq ((hhit q).1 hh)), if_neg hq, EReal.coe_zero]
  rw [Finset.sum_congr rfl (fun q _ => h q), ← coe_sum,
    Fin.sum_univ_eq_sum_range (fun j => if n + j = t then f (n + j) else 0) w]

/-- Whatever real shift is carried, the shift plus the log of the shifted exponential sum is the log-sum-exp. -/
theorem shift_lse (f : ℕ → ℝ) (n : ℕ) (μ : ℝ) (hpos : 0 < ∑ j ∈ Finset.range n, Real.exp (f j - μ)) :
    μ + Real.log (∑ j ∈ Finset.range n, Real.exp (f j - μ)) = lse f n := by
  have hsum : ∑ j ∈ Finset.range n, Real.exp (f j)
      = Real.exp μ * ∑ j ∈ Finset.range n, Real.exp (f j - μ) := by
    rw [Finset.mul_sum]
    refine Finset.sum_congr rfl (fun j _ => ?_)
    rw [← Real.exp_add]
    congr 1
    ring
  rw [lse, hsum, Real.log_mul (Real.exp_pos μ).ne' hpos.ne', Real.log_exp]

/-- A nonempty sum of exponentials is positive. -/
theorem exp_sum_pos (f : ℕ → ℝ) {n : ℕ} (hn : 0 < n) (μ : ℝ) :
    0 < ∑ j ∈ Finset.range n, Real.exp (f j - μ) :=
  Finset.sum_pos (fun j _ => Real.exp_pos _) (Finset.nonempty_range_iff.2 (by omega))

/-- The new shift from a real shift and a tile of reals is a real. -/
theorem stepM_real {w : ℕ} (μ : ℝ) (g : Fin w → ℝ) :
    ∃ ν : ℝ, stepM (μ : EReal) (fun q => (g q : EReal)) = (ν : EReal) := by
  have h1 : stepM (μ : EReal) (fun q => (g q : EReal)) < ⊤ := by
    rw [stepM]
    exact max_lt (EReal.coe_lt_top μ)
      ((Finset.fold_max_lt _).2 ⟨bot_lt_top, fun q _ => EReal.coe_lt_top (g q)⟩)
  have h2 : (μ : EReal) ≤ stepM (μ : EReal) (fun q => (g q : EReal)) := le_max_left _ _
  have h3 : stepM (μ : EReal) (fun q => (g q : EReal)) ≠ ⊥ := fun h => by
    rw [h] at h2
    exact absurd h2 (not_le.2 (EReal.bot_lt_coe μ))
  exact ⟨_, (EReal.coe_toReal h1.ne h3).symm⟩

/-- A fold of `max` from `-∞` over a nonempty family of reals is a real. -/
theorem fold_max_real {w : ℕ} (hw : 0 < w) (g : Fin w → ℝ) :
    ∃ r : ℝ, (Finset.univ : Finset (Fin w)).fold max (⊥ : EReal) (fun q => (g q : EReal)) = (r : EReal) := by
  have h1 : (Finset.univ : Finset (Fin w)).fold max (⊥ : EReal) (fun q => (g q : EReal)) < ⊤ :=
    (Finset.fold_max_lt _).2 ⟨bot_lt_top, fun q _ => EReal.coe_lt_top (g q)⟩
  have h2 : ((g ⟨0, hw⟩ : ℝ) : EReal)
      ≤ (Finset.univ : Finset (Fin w)).fold max (⊥ : EReal) (fun q => (g q : EReal)) :=
    (Finset.le_fold_max _).2 (Or.inr ⟨⟨0, hw⟩, Finset.mem_univ _, le_rfl⟩)
  have h3 : (Finset.univ : Finset (Fin w)).fold max (⊥ : EReal) (fun q => (g q : EReal)) ≠ ⊥ := fun h => by
    rw [h] at h2
    exact absurd h2 (not_le.2 (EReal.bot_lt_coe _))
  exact ⟨_, (EReal.coe_toReal h1.ne h3).symm⟩

/-- The first tile, from the reset state (shift `-∞`, both sums zero). -/
theorem Streamed.first {f : ℕ → ℝ} {t w : ℕ} (hw : 0 < w) (a : Fin w → EReal) (hit : Fin w → Bool)
    (ha : ∀ q : Fin w, a q = (f q.val : EReal)) (hhit : ∀ q : Fin w, hit q = true ↔ q.val = t) :
    Streamed f t w (stepM ⊥ a) (stepL ⊥ 0 a) (stepS 0 a hit) := by
  have ha' : a = fun q : Fin w => ((f (0 + q.val) : ℝ) : EReal) := funext (fun q => by rw [ha q, zero_add])
  subst ha'
  have hhit' : ∀ q : Fin w, hit q = true ↔ 0 + q.val = t := fun q => by rw [zero_add]; exact hhit q
  obtain ⟨ν, hν⟩ := fold_max_real hw (fun q : Fin w => f (0 + q.val))
  have hM : stepM (⊥ : EReal) (fun q : Fin w => ((f (0 + q.val) : ℝ) : EReal)) = (ν : EReal) := by
    rw [stepM, hν, max_eq_right bot_le]
  refine ⟨ν, hM, ?_, ?_⟩
  · rw [stepL, hM, mul_zero, zero_add, tile_exp_sum f 0 w ν]
    simp only [zero_add]
  · rw [stepS, zero_add, tile_pick_sum f t 0 w hit hhit']
    simp only [zero_add]

/-- A later tile of `w` columns starting at column `n`. -/
theorem Streamed.step {f : ℕ → ℝ} {t n w : ℕ} {m l s : EReal} (h : Streamed f t n m l s) (a : Fin w → EReal)
    (hit : Fin w → Bool) (ha : ∀ q : Fin w, a q = (f (n + q.val) : EReal))
    (hhit : ∀ q : Fin w, hit q = true ↔ n + q.val = t) :
    Streamed f t (n + w) (stepM m a) (stepL m l a) (stepS s a hit) := by
  obtain ⟨μ, rfl, rfl, rfl⟩ := h
  have ha' : a = fun q : Fin w => ((f (n + q.val) : ℝ) : EReal) := funext ha
  subst ha'
  obtain ⟨ν, hν⟩ := stepM_real μ (fun q : Fin w => f (n + q.val))
  refine ⟨ν, hν, ?_, ?_⟩
  · rw [stepL, hν, ← EReal.coe_sub, Ideal.exp_coe, ← EReal.coe_mul, tile_exp_sum f n w ν, ← EReal.coe_add,
      Finset.sum_range_add, Finset.mul_sum]
    congr 2
    refine Finset.sum_congr rfl (fun j _ => ?_)
    rw [← Real.exp_add]
    congr 1
    ring
  · rw [stepS, tile_pick_sum f t n w hit hhit, ← EReal.coe_add, Finset.sum_range_add]

/-- At the end of the row the carried numbers give the row's loss. -/
theorem Streamed.loss {f : ℕ → ℝ} {t n : ℕ} {m l s : EReal} (h : Streamed f t n m l s) (ht : t < n) :
    (0 : EReal) - (s - (m + Ideal.log l)) = ((rowLoss f t n : ℝ) : EReal) := by
  obtain ⟨μ, rfl, rfl, rfl⟩ := h
  have hn : 0 < n := by omega
  have hpos := exp_sum_pos f hn μ
  rw [Ideal.log_coe, if_neg (not_le.2 hpos), Finset.sum_ite_eq' (Finset.range n) t f,
    if_pos (Finset.mem_range.2 ht), ← EReal.coe_add, ← EReal.coe_sub, ← EReal.coe_zero, ← EReal.coe_sub,
    shift_lse f n μ hpos, rowLoss]
  congr 1
  ring

/-- The one-pass evaluation: shift by the row's maximum (folded from `-∞`, then taken against `-∞` once more),
    subtract the log of the shifted exponential sum (summed from `0`), read at the target. -/
theorem onepass_loss {f : ℕ → ℝ} {t n : ℕ} (hn : 0 < n) (ht : t < n) (M : EReal)
    (hM : M = max ⊥ ((Finset.univ : Finset (Fin n)).fold max ⊥ (fun j => (f j.val : EReal)))) :
    ((f t : EReal) - M) - Ideal.log (0 + ∑ j : Fin n, Ideal.exp ((f j.val : EReal) - M))
      = ((-(rowLoss f t n) : ℝ) : EReal) := by
  obtain ⟨ν, hν⟩ := fold_max_real hn (fun j : Fin n => f (0 + j.val))
  simp only [zero_add] at hν
  rw [hν, max_eq_right bot_le] at hM
  subst hM
  have hsum := tile_exp_sum f 0 n ν
  simp only [zero_add] at hsum
  have hpos := exp_sum_pos f hn ν
  rw [hsum, zero_add, Ideal.log_coe, if_neg (not_le.2 hpos), ← EReal.coe_sub, ← EReal.coe_sub, rowLoss,
    ← shift_lse f n ν hpos]
  congr 1
  ring

/-- The mean of the losses, computed as the streamed side does (sum from `0`, divide) and as the one-pass side does
    (sum the negated losses from `0`, divide, negate): one real number. `d` is the divisor's extended real. -/
theorem mean_eq {R : ℕ} (g : Fin R → ℝ) (D : ℝ) (hD : D ≠ 0) :
    Ideal.div (0 + ∑ r : Fin R, ((g r : ℝ) : EReal)) (D : EReal)
      = -(Ideal.div (0 + ∑ r : Fin R, ((-(g r) : ℝ) : EReal)) (D : EReal)) := by
  rw [Ideal.div_coe hD, Ideal.div_coe hD, zero_add, zero_add, ← coe_sum, ← coe_sum, ← EReal.coe_mul,
    ← EReal.coe_mul, ← EReal.coe_neg, Finset.sum_neg_distrib]
  congr 1
  ring

/-- Whether lane `q` of tile `k` is the column the word `τ` names: the lane's word against the target's word less the
    tile's first column (tiles of 3200 columns). -/
def hitAt (τ : BitVec 32) (k : ℕ) (q : Fin 3200) : Bool :=
  decide (BitVec.ofNat 32 q.val = τ - BitVec.ofNat 32 k * 3200#32)

/-- The mean of 8192 losses as the streamed side computes it: summed from `0`, divided by the float 8192. -/
def meanLoss (g : Fin 8192 → ℝ) : EReal :=
  Ideal.div (0 + ∑ r : Fin 8192, ((g r : ℝ) : EReal)) (Ideal.ofBits .f32 0x46000000#32)

/-- The float pattern `0x46000000` is 8192. -/
theorem ofBits_8192 : Ideal.ofBits .f32 0x46000000#32 = ((8192 : ℝ) : EReal) := by
  simp [Ideal.ofBits, Ideal.ieee]
  rw [← EReal.coe_mul]
  norm_num

/-- The float pattern `0xFF800000` is `-∞`. -/
theorem ofBits_neg_inf : Ideal.ofBits .f32 0xFF800000#32 = (⊥ : EReal) := by
  simp [Ideal.ofBits, Ideal.ieee]

/-- The one-pass side's mean — the negated losses summed from `0`, divided by the float 8192, negated — is the same. -/
theorem meanLoss_neg (g : Fin 8192 → ℝ) :
    -(Ideal.div (0 + ∑ r : Fin 8192, ((-(g r) : ℝ) : EReal)) (Ideal.ofBits .f32 0x46000000#32)) = meanLoss g := by
  rw [meanLoss, ofBits_8192]
  exact (mean_eq g 8192 (by norm_num)).symm

/-- The target's word, less the tile's first column, is the lane's word exactly when the lane is the target's column:
    `q` a lane of a tile of 3200 columns, `k` the tile's number (of 10), `τ` a target below 32000. -/
theorem lane_hits (τ : BitVec 32) (hτ : τ.toNat < 32000) (k q : ℕ) (hk : k < 10) (hq : q < 3200) :
    (BitVec.ofNat 32 q = τ - (BitVec.ofNat 32 k) * 3200#32) ↔ k * 3200 + q = τ.toNat := by
  bv_omega

end Cert.CrossEntropy

end
-- ==== Proof.RefLogp.lean ====
/-
  The reference's log-softmax stage read at an index, at the ideal values.

  In row r the reference takes the row's maximum as a fold of max from -∞, takes that against -∞ once more,
  subtracts it from every entry, and subtracts from the shifted entry the log of the row's sum (from 0) of the
  exponentials of the shifted entries.
-/
import proofs.«408208_j28467043238067_3_alg».proof.Proof.RefRead
import proofs.«408208_j28467043238067_3_alg».proof.Proof.Spec
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal Cert.ReferenceIdeal.Gen
  Cert.ReferenceIdeal.ReadP Cert.CrossEntropy
open scoped BigOperators

/-- the shift the reference subtracts in row r: the row's maximum folded from -∞, taken against -∞ once more -/
def rowShift (x : FVec Ideal S8192x32000 .f32) (r : Fin 8192) : EReal :=
  max ⊥ ((Finset.univ : Finset (Fin 32000)).fold max ⊥ (fun j => x (ix2 r j)))

/-- The rows-by-columns shape reduces over its column axis to the rows. -/
theorem reduces_d1 : S8192x32000.Reduces [1] S8192 := by decide

/-- Row index r with column k put back is (r, k). -/
theorem lift_ix2 (h : S8192x32000.Reduces [1] S8192) (r : Fin 8192) (k : Fin 32000) :
    h.lift (ix1 r) k = ix2 r k := by
  funext c; apply Fin.ext
  match c with
  | ⟨0, _⟩ => rfl
  | ⟨1, _⟩ => rfl

/-- The row maximum the reference folds, at row r: the fold of max from -∞ over the row. -/
theorem rowMax_apply (x : FVec Ideal S8192x32000 .f32) (r : Fin 8192) :
    val_main_call0_v0 (F := Ideal) x (ix1 r)
      = (Finset.univ : Finset (Fin 32000)).fold max ⊥ (fun j => x (ix2 r j)) := by
  unfold val_main_call0_v0
  rw [Host.reduce_eq_fold_single FloatOps.maximumf x _ reducesTo_S8192x32000_S8192_d1 reduces_d1 h_S_]
  have hf : (x ∘ reduces_d1.lift (ix1 r)) = fun k : Fin 32000 => x (ix2 r k) :=
    funext fun k => congrArg x (lift_ix2 reduces_d1 r k)
  have hi : val_main_call0_cst (F := Ideal) (Shape.Idx.first h_S_) = (⊥ : EReal) := by
    rw [val_main_call0_cst_apply, Ideal.ofBits_def, ofBits_neg_inf]
  rw [hi]
  exact congrArg (fun f => Finset.fold max (⊥ : EReal) f (Finset.univ : Finset (Fin 32000))) hf

/-- The shift broadcast over the row, at (r, j). -/
theorem shift_apply (x : FVec Ideal S8192x32000 .f32) (r : Fin 8192) (j : Fin 32000) :
    val_main_call0_v4 (F := Ideal) x (ix2 r j) = rowShift x r := by
  have e : idx_main_call0_v3 (idx_main_call0_v4 (ix2 r j)) = ix1 r :=
    funext fun a => Fin.ext (by match a with | ⟨0, _⟩ => rfl)
  rw [val_main_call0_v4_apply, val_main_call0_v3_apply, val_main_call0_v2_apply, val_main_call0_v1_apply,
    val_main_call0_cst_0_apply, e, rowMax_apply, Ideal.maximumf_def, Ideal.ofBits_def, ofBits_neg_inf]
  rfl

/-- The shifted entry at (r, j). -/
theorem shifted_apply (x : FVec Ideal S8192x32000 .f32) (r : Fin 8192) (j : Fin 32000) :
    val_main_call0_v5 (F := Ideal) x (ix2 r j) = x (ix2 r j) - rowShift x r := by
  rw [val_main_call0_v5_apply, shift_apply, Ideal.subf_def]

/-- The log of the row's exponential sum, broadcast over the row, at (r, j). -/
theorem logSum_apply (x : FVec Ideal S8192x32000 .f32) (r : Fin 8192) (j : Fin 32000) :
    val_main_call0_v10 (F := Ideal) x (ix2 r j)
      = Ideal.log (0 + ∑ j' : Fin 32000, Ideal.exp (x (ix2 r j') - rowShift x r)) := by
  have e : idx_main_call0_v8 (idx_main_call0_v10 (ix2 r j)) = ix1 r :=
    funext fun a => Fin.ext (by match a with | ⟨0, _⟩ => rfl)
  have e7 : ∀ k : Fin 32000, idx_main_call0_v7 (ix1 r) k = ix2 r k := fun k =>
    funext fun a => Fin.ext (by match a with | ⟨0, _⟩ => rfl | ⟨1, _⟩ => rfl)
  rw [val_main_call0_v10_apply, val_main_call0_v9_apply, val_main_call0_v8_apply, e, val_main_call0_v7_apply,
    val_main_call0_cst_1_apply, Ideal.hostUnary_log_def, Ideal.ofBits_def, Ideal.ofBits_zero_f32]
  refine congrArg (fun s => Ideal.log (0 + s)) (Finset.sum_congr rfl fun k _ => ?_)
  rw [e7 k, val_main_call0_v6_apply, shifted_apply, Ideal.hostUnary_exp_def]

/-- The reference's log-softmax at (r, j): the shifted entry less the log of the row's sum of shifted exponentials. -/
theorem logp_apply (x : FVec Ideal S8192x32000 .f32) (r : Fin 8192) (j : Fin 32000) :
    val_main_v0 (F := Ideal) x (ix2 r j)
      = (x (ix2 r j) - rowShift x r)
        - Ideal.log (0 + ∑ j' : Fin 32000, Ideal.exp (x (ix2 r j') - rowShift x r)) := by
  rw [val_main_v0_apply, shifted_apply, logSum_apply, Ideal.subf_def]

end Cert.ReferenceIdeal.RefValue

end
-- ==== Proof.LibTakeAlongRow.lean ====
/-
  A BATCHED TAKE ALONG THE ROW AXIS, read at an index.

  `jnp.take_along_axis(x, idx, axis=1)` of `x : [B, N]` at `idx : [B, M]` lowers to a `stablehlo.gather` whose start
  indices are reshaped to `[B, M, 1]`: offset_dims `[]`, collapsed_slice_dims `[1]`, operand_batching_dims `[0]`,
  start_indices_batching_dims `[0]`, start_index_map `[1]`, index_vector_dim `2`, slice_sizes `[1, 1]`. This file builds
  that record from the sizes (`rowTakeDims`) and reads the gather at `(b, m)`: the operand at `(b, k)` with `k` the
  start index `idx[b, m, 0]` read SIGNED and CLAMPED into `[0, N − 1]` (`rowTake_apply`). A 32-bit word below `2^31`
  read signed is itself (`toInt_toNat_of_lt`), so an in-range index is taken as it stands.
-/
import Idealize.ShloMosaic.PureOps.Ideal
import Idealize.ShloMosaic.Lib.ValueIdx

noncomputable section

namespace Idealize.ShloMosaic.TakeAlongRow

open Idealize.ShloMosaic Idealize.ShloMosaic.ValueIdx

variable {α : Type}

/-- Those dimension numbers for an operand `[B, N]`, start indices `[B, M, 1]` and result `[B, M]`; their
    conditions `wf` are decided on a program's literal shapes. -/
abbrev rowTakeDims (B N M : Nat)
    (wf : GatherDims.WF ⟨2, ![B, N]⟩ ⟨3, ![B, M, 1]⟩ ⟨2, ![B, M]⟩ [] [1] [0] [1] [0] 2 ![1, 1]) :
    GatherDims ⟨2, ![B, N]⟩ ⟨3, ![B, M, 1]⟩ ⟨2, ![B, M]⟩ where
  offsetDims := []
  collapsedSliceDims := [1]
  operandBatchingDims := [0]
  startIndicesBatchingDims := [0]
  startIndexMap := [1]
  indexVectorDim := 2
  sliceSizes := ![1, 1]
  wf := wf

variable {B N M w : Nat}
  (wf : GatherDims.WF ⟨2, ![B, N]⟩ ⟨3, ![B, M, 1]⟩ ⟨2, ![B, M]⟩ [] [1] [0] [1] [0] 2 ![1, 1])

/-- The start index of result element `(b, m)` is read at `(b, m, 0)`: the batch coordinate, the position along the
    taken axis, and the one component of the index vector. -/
theorem siIdx_eq (b : Fin B) (m : Fin M) :
    (rowTakeDims B N M wf).siIdx (ix2 b m) ⟨List.idxOf (1 : Fin 2) (rowTakeDims B N M wf).startIndexMap,
      List.idxOf_lt_length_iff.2 (List.mem_singleton.mpr rfl)⟩ = ix3 b m 0 := by
  funext a; refine Fin.ext ?_
  match a with
  | ⟨0, _⟩ => rfl
  | ⟨1, _⟩ => rfl
  | ⟨2, _⟩ => rfl

/-- On the taken axis the slice starts at the index `idx[b, m, 0]` read signed and clamped into `[0, N − 1]`. -/
theorem start_1 (idx : IVec ⟨3, ![B, M, 1]⟩ w) (b : Fin B) (m : Fin M) :
    (rowTakeDims B N M wf).start (ix2 b m) idx 1 = min (idx (ix3 b m 0)).toInt.toNat (N - 1) := by
  have hmem : (1 : Fin 2) ∈ (rowTakeDims B N M wf).startIndexMap := List.mem_singleton.mpr rfl
  unfold GatherDims.start
  rw [dif_pos hmem, siIdx_eq]
  rfl

/-- On the batching axis the start index map names nothing: the slice starts at `0`. -/
theorem start_0 (idx : IVec ⟨3, ![B, M, 1]⟩ w) (j : (⟨2, ![B, M]⟩ : Shape).Idx) :
    (rowTakeDims B N M wf).start j idx 0 = 0 := by
  unfold GatherDims.start
  rw [dif_neg (by decide : (0 : Fin 2) ∉ ([1] : List (Fin 2)))]

/-- The batching coordinate: the result's batch coordinate on axis 0, nothing on the taken axis. -/
theorem batch_0 (b : Fin B) (m : Fin M) : (rowTakeDims B N M wf).batchCoord (ix2 b m) 0 = b.val := by
  unfold GatherDims.batchCoord
  rw [dif_pos (by decide : (0 : Fin 2) ∈ ([0] : List (Fin 2)))]
  rfl
theorem batch_1 (j : (⟨2, ![B, M]⟩ : Shape).Idx) : (rowTakeDims B N M wf).batchCoord j 1 = 0 :=
  (rowTakeDims B N M wf).batchCoord_eq_zero j 1 (by decide : (1 : Fin 2) ∉ ([0] : List (Fin 2)))

/-- There is no offset axis: the offset coordinate is nothing on the batching and on the collapsed axis. -/
theorem off_0 (j : (⟨2, ![B, M]⟩ : Shape).Idx) : (rowTakeDims B N M wf).offCoord j 0 = 0 :=
  (rowTakeDims B N M wf).offCoord_eq_zero j 0 fun h =>
    (((rowTakeDims B N M wf).mem_sKept 0).mp h).2 (by decide : (0 : Fin 2) ∈ ([0] : List (Fin 2)))
theorem off_1 (j : (⟨2, ![B, M]⟩ : Shape).Idx) : (rowTakeDims B N M wf).offCoord j 1 = 0 :=
  (rowTakeDims B N M wf).offCoord_eq_zero j 1 fun h =>
    (((rowTakeDims B N M wf).mem_sKept 1).mp h).1 (by decide : (1 : Fin 2) ∈ ([1] : List (Fin 2)))

/-- THE TAKE READ AT `(b, m)`: the operand at `(b, k)`, `k` the start index `idx[b, m, 0]` read signed and clamped
    into `[0, N − 1]`. -/
theorem rowTake_apply (hN : 0 < N) (x : (⟨2, ![B, N]⟩ : Shape).Idx → α) (idx : IVec ⟨3, ![B, M, 1]⟩ w)
    (b : Fin B) (m : Fin M) :
    Host.gather (rowTakeDims B N M wf) x idx (ix2 b m)
      = x (ix2 b ⟨min (idx (ix3 b m 0)).toInt.toNat (N - 1), by omega⟩) := by
  unfold Host.gather
  congr 1
  funext a
  refine Fin.ext ?_
  show (rowTakeDims B N M wf).start (ix2 b m) idx a + (rowTakeDims B N M wf).batchCoord (ix2 b m) a
    + (rowTakeDims B N M wf).offCoord (ix2 b m) a = _
  match a with
  | ⟨0, _⟩ =>
    show (rowTakeDims B N M wf).start (ix2 b m) idx 0 + (rowTakeDims B N M wf).batchCoord (ix2 b m) 0
      + (rowTakeDims B N M wf).offCoord (ix2 b m) 0 = b.val
    rw [start_0, batch_0, off_0]; omega
  | ⟨1, _⟩ =>
    show (rowTakeDims B N M wf).start (ix2 b m) idx 1 + (rowTakeDims B N M wf).batchCoord (ix2 b m) 1
      + (rowTakeDims B N M wf).offCoord (ix2 b m) 1 = min (idx (ix3 b m 0)).toInt.toNat (N - 1)
    rw [start_1, batch_1, off_1]; omega

/-- A 32-bit word below `2^31` read signed is itself: its sign bit is clear. -/
theorem toInt_toNat_of_lt {a : BitVec 32} {n : Nat} (h : a.toNat < n) (hn : n ≤ 2 ^ 31) : a.toInt.toNat = a.toNat := by
  rw [BitVec.toInt_eq_toNat_cond, if_pos (by omega)]
  exact Int.toNat_natCast _

end Idealize.ShloMosaic.TakeAlongRow

end
-- ==== Proof.RefValue.lean ====
/-
  THE REFERENCE'S RESULT at the ideal values, under the claim's preconditions.

  The reference is the mean over the rows of the negated log-probability of each row's target:
  `logp = log_softmax x`, `picked[r] = logp[r, t[r]]` (a take along the row axis, its index normalised, masked by an
  in-range test and filled with a NaN where the test fails), then `-(sum picked / 8192)`.

  With every target word below 32000 the normalisation leaves the index as it stands (it is not negative), both
  halves of the in-range test hold, so the mask is 1 everywhere and the fill is never read; the take reads `logp` at
  `(r, t[r])`, which is the negated loss of the row (the one-pass evaluation of Spec.lean). The tail is the mean as
  the one-pass side computes it.
-/
import proofs.«408208_j28467043238067_3_alg».proof.Proof.RefRead
import proofs.«408208_j28467043238067_3_alg».proof.Proof.Spec
import proofs.«408208_j28467043238067_3_alg».proof.Proof.RefLogp
import proofs.«408208_j28467043238067_3_alg».proof.Proof.LibTakeAlongRow
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

namespace Cert.ReferenceIdeal.RefValue

open Idealize.ShloMosaic Idealize.ShloMosaic.ValueIdx Idealize.ShloMosaic.StableHlo
  Idealize.ShloMosaic.TakeAlongRow Cert.ReferenceIdeal Cert.ReferenceIdeal.Gen Cert.ReferenceIdeal.ReadP
  Cert.CrossEntropy
open scoped BigOperators

/-! ## Words and the `and` fold -/

/-- A left fold by `and` from 1 over `i1` words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-- A `stablehlo.reduce` by `and` from 1 of an array of 1s is 1 at every index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ (fun i _ => hx i)

/-- A word below 32000 is not negative read signed … -/
theorem slt_zero_of_lt {a : BitVec 32} (h : a.toNat < 32000) : IntOp.cmpi .slt a 0#32 = 0#1 :=
  eq_zero_of_ne_one (fun e => by
    have := (Predicate.slt_iff_toNat (a := a) (b := 0#32) (by omega) (by decide)).1 e
    simp at this)

/-- … it is at least 0 … -/
theorem sge_zero_of_lt {a : BitVec 32} (h : a.toNat < 32000) : IntOp.cmpi .sge a 0#32 = 1#1 :=
  (Predicate.sge_iff_toNat (a := a) (b := 0#32) (by omega) (by decide)).2 (by simp)

/-- … and at most 31999. -/
theorem sle_top_of_lt {a : BitVec 32} (h : a.toNat < 32000) : IntOp.cmpi .sle a 31999#32 = 1#1 :=
  (Predicate.sle_iff_toNat (a := a) (b := 31999#32) (by omega) (by decide)).2 (by
    show a.toNat ≤ 31999; omega)

/-- A rank-1 index set of 8192 is its coordinate's range. -/
def idxEquiv1 : S8192.Idx ≃ Fin 8192 where
  toFun j := j 0
  invFun r := ix1 r
  left_inv j := (eq_ix1 j).symm
  right_inv _ := rfl

section Value

variable (x : FVec Ideal S8192x32000 .f32) (t : IVec S8192 32) (xr : Fin 8192 → ℕ → ℝ)
  (hx : ∀ (r : Fin 8192) (j : Fin 32000), x (ix2 r j) = ((xr r j.val : ℝ) : EReal))
  (ht : ∀ r : Fin 8192, (t (ix1 r)).toNat < 32000)

/-! ## The normalised index is the target -/

/-- The targets as a column, read at an index: the row's target. -/
theorem col_read (i : S8192x1.Idx) : val_main_v1 (F := Ideal) t i = t (ix1 (i 0)) := by
  rw [val_main_v1_apply]
  congr 1
  funext a
  match a with
  | ⟨0, _⟩ => rfl

include ht in
/-- The normalised index (`idx + 32000` where `idx < 0`, else `idx`) is the target: a word below 32000 is not negative. -/
theorem norm_read (i : S8192x1.Idx) : val_main_call1_v4 (F := Ideal) t i = t (ix1 (i 0)) := by
  rw [val_main_call1_v4_apply, val_main_call1_v1_apply, val_main_call1_v0_apply, val_main_call1_c_apply, col_read,
    slt_zero_of_lt (ht (i 0)), select_zero]

include ht in
/-- Reshaped to `[8192, 1, 1]` it is the target of the first coordinate's row. -/
theorem idx_read (i : S8192x1x1.Idx) : val_main_call1_v5 (F := Ideal) t i = t (ix1 (i 0)) := by
  rw [val_main_call1_v5_apply, norm_read t ht]
  congr 2
  have h1 : (i 1).val < 1 := (i 1).isLt
  have h2 : (i 2).val < 1 := (i 2).isLt
  refine Fin.ext ?_
  show (((i 0).val * 1 + (i 1).val) * 1 + (i 2).val) / 1 = (i 0).val
  omega

/-! ## The in-range mask is 1 everywhere -/

include ht in
/-- Both halves of the in-range test hold at every index. -/
theorem inrange_read (i : S8192x1x1.Idx) : val_main_call1_v11 (F := Ideal) t i = 1#1 := by
  rw [val_main_call1_v11_apply, val_main_call1_v7_apply, val_main_call1_v10_apply, idx_read t ht,
    val_main_call1_v6_apply, val_main_call1_c_2_apply, val_main_call1_v9_apply, val_main_call1_v8_apply,
    val_main_call1_c_1_apply, sge_zero_of_lt (ht (i 0)), sle_top_of_lt (ht (i 0))]
  rfl

include ht in
/-- So its `and` over the unit axis is 1 at every row. -/
theorem mask_read (i : S8192x1.Idx) : val_main_call1_v12 (F := Ideal) t i = 1#1 := by
  unfold val_main_call1_v12
  exact reduce_andi_ones _ _ _ _ rfl (inrange_read t ht) i

/-! ## The take reads the log-probability at the target -/

include ht in
/-- The take along the row axis at row `r` reads `logp` at `(r, t r)`: the start index, read signed and clamped into
    `[0, 31999]`, is the target itself. -/
theorem take_read (r : Fin 8192) :
    val_main_call1_v13 (F := Ideal) x t (ix2 r 0) = val_main_v0 (F := Ideal) x (ix2 r ⟨(t (ix1 r)).toNat, ht r⟩) := by
  unfold val_main_call1_v13
  have hrec : gather_S8192x32000_S8192x1x1_S8192x1_n_1_0_0_1_2_11
      = rowTakeDims 8192 32000 1 Facts₀.gather_S8192x32000_S8192x1x1_S8192x1_n_1_0_0_1_2_11_wf := rfl
  rw [hrec, rowTake_apply _ (by norm_num : 0 < 32000)]
  refine congrArg (fun k : Fin 32000 => val_main_v0 (F := Ideal) x (ix2 r k)) (Fin.ext ?_)
  show min (val_main_call1_v5 (F := Ideal) t (ix3 r 0 0)).toInt.toNat (32000 - 1) = (t (ix1 r)).toNat
  rw [idx_read t ht]
  show min (t (ix1 r)).toInt.toNat (32000 - 1) = (t (ix1 r)).toNat
  rw [toInt_toNat_of_lt (ht r) (by norm_num)]
  have := ht r
  omega

include hx ht in
/-- The picked entry of row `r` is the negated loss of the row. -/
theorem picked (r : Fin 8192) :
    val_main_v2 (F := Ideal) x t (ix2 r 0) = ((-(rowLoss (xr r) (t (ix1 r)).toNat 32000) : ℝ) : EReal) := by
  rw [val_main_v2_apply, mask_read t ht, select_one, take_read x t ht, logp_apply]
  unfold rowShift
  simp only [hx]
  exact onepass_loss (f := xr r) (by norm_num) (ht r) _ rfl

/-! ## The mean -/

include hx ht in
theorem ref_value :
    val_main_v6 (F := Ideal) x t = fun _ => meanLoss (fun r => rowLoss (xr r) (t (ix1 r)).toNat 32000) := by
  funext i
  have hsum : ∑ j : S8192.Idx, val_main_v3 (F := Ideal) x t j
      = ∑ r : Fin 8192, ((-(rowLoss (xr r) (t (ix1 r)).toNat 32000) : ℝ) : EReal) :=
    Fintype.sum_equiv idxEquiv1 _ _ (fun j => by
      obtain ⟨a, rfl⟩ : ∃ a, j = ix1 a := ⟨j 0, eq_ix1 j⟩
      show val_main_v3 (F := Ideal) x t (ix1 a) = ((-(rowLoss (xr a) (t (ix1 a)).toNat 32000) : ℝ) : EReal)
      rw [val_main_v3_apply, ← picked x t xr hx ht a]
      congr 1
      funext d
      match d with
      | ⟨0, _⟩ => exact Fin.ext (Nat.div_one _)
      | ⟨1, _⟩ => rfl)
  rw [val_main_v6_apply, val_main_v5_apply, val_main_v4_apply, val_main_cst_apply, val_main_cst_0_apply, hsum]
  simp only [Ideal.hostNegf_def, Ideal.negf_def, Ideal.hostDivf_def, Ideal.ofBits_def, Ideal.ofBits_zero_f32]
  exact meanLoss_neg _

end Value

end Cert.ReferenceIdeal.RefValue

end
-- ==== Proof.PreFacts.lean ====
import proofs.«408208_j28467043238067_3_alg».proof.Pre_finite_inputs
import Idealize.ShloMosaic.PureOps.Ideal
import Idealize.ShloMosaic.Lib.ValueIdx
import Idealize.ShloMosaic.Lib.ReduceAll
import Idealize.ShloMosaic.Lib.StableHlo.Predicate

namespace Cert.PreFacts

open Idealize.ShloMosaic Idealize.ShloMosaic.ValueIdx

/-- The word 0x7F800000 is the f32 encoding of +∞. -/
theorem inf_const : Ideal.ofBits .f32 0x7F800000#32 = (⊤ : EReal) := by
  simp [Ideal.ofBits, Ideal.ieee]

/-- An extended real whose absolute value max a (-a) is strictly below +∞ is a real number. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- A 32-bit word that is signed-at-least 0 and signed-below 32000 has unsigned value below 32000. -/
theorem toNat_lt_of_range (a : BitVec 32)
    (h : IntOp.andi (IntOp.cmpi .sge a 0#32) (IntOp.cmpi .slt a 32000#32) = 1#1) : a.toNat < 32000 := by
  obtain ⟨h1, h2⟩ := IntOp.andi_eq_one.1 h
  simp only [IntOp.cmpi, StableHlo.Predicate.ofBool_eq_one_iff, BitVec.sle, BitVec.slt, decide_eq_true_eq] at h1 h2
  have ha := BitVec.toInt_eq_toNat_cond a
  have e0 : (0#32).toInt = 0 := by decide
  have e1 : (32000#32).toInt = 32000 := by decide
  rw [e0] at h1
  rw [e1] at h2
  split at ha <;> omega

instance : Subsingleton Cert.Pre_finite_inputs.S_.Idx := ⟨fun a b => funext fun d => d.elim0⟩

theorem pre_facts [Cert.Pre_finite_inputs.Facts]
    (x : FVec Ideal Cert.Pre_finite_inputs.S8192x32000 .f32) (t : IVec Cert.Pre_finite_inputs.S8192 32)
    (h : Cert.Pre_finite_inputs.fn (F := Ideal) x t = fun _ => 1#1) :
    (∀ i : Cert.Pre_finite_inputs.S8192x32000.Idx, ∃ r : ℝ, x i = (r : EReal))
      ∧ (∀ r : Fin 8192, (t (ix1 r)).toNat < 32000) := by
  have h0 := congrFun h ValueIdx.ix0
  dsimp only [Cert.Pre_finite_inputs.fn] at h0
  obtain ⟨hA, hB⟩ := IntOp.andi_eq_one.1 h0
  constructor
  · intro i
    have e := Host.reduce_andi_all _ _ _ _ _ hA i
    have hb := StableHlo.Predicate.bcast_scalar (t := Cert.Pre_finite_inputs.S8192x32000)
      Cert.Pre_finite_inputs.Facts.bcast_S_S8192x32000 Cert.Pre_finite_inputs.Facts.h_S_
      (constant Cert.Pre_finite_inputs.S_ .f32 0x7F800000#32 : FVec Ideal Cert.Pre_finite_inputs.S_ .f32) i
    simp only [cmpf, Host.absf] at e
    rw [hb] at e
    simp only [constant, Ideal.ofBits_def, inf_const, Ideal.hostAbsf_def] at e
    exact real_of_abs_lt_top _ e
  · intro r
    have e := Host.reduce_andi_all _ _ _ _ _ hB (ix1 r)
    have hb0 := StableHlo.Predicate.bcast_scalar (t := Cert.Pre_finite_inputs.S8192)
      Cert.Pre_finite_inputs.Facts.bcast_S_S8192 Cert.Pre_finite_inputs.Facts.h_S_
      (constantI Cert.Pre_finite_inputs.S_ 32 0#32) (ix1 r)
    have hb1 := StableHlo.Predicate.bcast_scalar (t := Cert.Pre_finite_inputs.S8192)
      Cert.Pre_finite_inputs.Facts.bcast_S_S8192 Cert.Pre_finite_inputs.Facts.h_S_
      (constantI Cert.Pre_finite_inputs.S_ 32 32000#32) (ix1 r)
    simp only [andi, cmpi] at e
    rw [hb0, hb1] at e
    simp only [constantI] at e
    exact toNat_lt_of_range _ e

end Cert.PreFacts
-- ==== Proof.KernelHost.lean ====
/-
  The host side of the kernel's program: the targets column the region finds is the reshape of the targets
  argument, and the operations after the region are the mean of the array the region leaves — at the ideal
  values, of real losses down that array's one column, their mean.
-/
import proofs.«408208_j28467043238067_3_alg».proof.Proof.Gen.KernelIdeal.Frame
import proofs.«408208_j28467043238067_3_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Host

open Idealize.ShloMosaic Idealize.ShloMosaic.TcCoe Idealize.SL.Sem Idealize.ShloMosaic.ValueIdx
open Cert.KernelIdeal Cert.KernelIdeal.Gen Cert.CrossEntropy
open scoped BigOperators

variable {F : FTy → Type} [FloatOps F] (m : (ℓ : Loc nD τ sig) → Buf (Elt F) ℓ)

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The indices of an `[a]` array are the numbers below `a`. -/
def idxEquiv1 {a : ℕ} : (⟨1, ![a]⟩ : Shape).Idx ≃ Fin a where
  toFun i := i 0
  invFun r := ix1 r
  left_inv i := (eq_ix1 i).symm
  right_inv _ := rfl

/-- A sum over the indices of an `[a]` array is the sum over the numbers below `a`. -/
theorem sum_idx1 {M : Type*} [AddCommMonoid M] {a : ℕ} (f : (⟨1, ![a]⟩ : Shape).Idx → M) :
    ∑ i : (⟨1, ![a]⟩ : Shape).Idx, f i = ∑ r : Fin a, f (ix1 r) :=
  (Equiv.sum_comp (idxEquiv1 (a := a)).symm f).symm

/-- the targets column the region finds: the reshape of the targets argument, read at (r, 0) -/
theorem targets_apply (c : Dev nD) (r : Fin 8192) :
    (V m c main_v0 : S8192x1.Idx → BitVec 32) (ix2 r 0) = (m ((c : Thread nD τ).loc main_arg1) : S8192.Idx → BitVec 32) (ix1 r) := by
  have e : (V m c main_v0 : S8192x1.Idx → BitVec 32)
      = shapeCast S8192x1 (m ((c : Thread nD τ).loc main_arg1)) shapeCasts_S8192_S8192x1 := by
    show StableHlo.after hostOps0 (fun b => m (c, b)) (Proc.devRef .tc main_v0) = _
    after_results
    rfl
  rw [e]
  exact shapeCast_a_a1_apply _ _ r 0

/-- the result of the tail: the mean's operations applied to the array the region leaves in main_v1 -/
theorem tail_result (c : Dev nD) :
    Pipeline.afterTail₀ cfgs (dats m) 0 (V0 m) [hostOps1] c main_v4
      = Host.divf (Host.reduceAdd (shapeCast S8192 ((dats m 0 c).arrAt 2 cfg0.N) shapeCasts_S8192x1_S8192) (constant (F := F) S_ .f32 0x00000000#32) reducesTo_S8192_S_d0 h_S_) (constant (F := F) S_ .f32 0x46000000#32) := by
  unfold Pipeline.afterTail₀
  show StableHlo.after hostOps1 _ (Proc.devRef .tc main_v4) = _
  after_results
  have hA : Pipeline.withArrays (cfgs 0).spec c (V0 m c) (fun w => (dats m 0 c).arrAt w (cfgs 0).N)
      (Proc.devRef .tc main_v1) = (dats m 0 c).arrAt 2 cfg0.N :=
    Pipeline.withArrays_arr spec0 launch0.win.arr_inj c (V0 m c) (fun w => (dats m 0 c).arrAt w cfg0.N) 2
  rw [hA]
  rfl

/-- at the ideal instance, if the array holds the real losses g down its one column, the tail's result is their mean -/
theorem tail_mean (m : (ℓ : Loc nD τ sig) → Buf (Elt Ideal) ℓ) (c : Dev nD) (g : Fin 8192 → ℝ)
    (hG : ∀ r : Fin 8192, ((dats m 0 c).arrAt 2 cfg0.N : S8192x1.Idx → EReal) (ix2 r 0) = ((g r : ℝ) : EReal)) :
    Pipeline.afterTail₀ cfgs (dats m) 0 (V0 m) [hostOps1] c main_v4 = fun _ => meanLoss g := by
  rw [tail_result]
  funext j
  simp only [Host.divf, Host.reduceAdd, Ideal.hostDivf_def, Ideal.hostReduceAdd_def]
  rw [Ideal.hostReduceAdd_total reducesTo_S8192_S_d0 (fun b => b.elim0), constant_apply, constant_apply,
    Ideal.ofBits_zero_f32, sum_idx1, meanLoss]
  have hs : (∑ r : Fin 8192, (shapeCast S8192 ((dats m 0 c).arrAt 2 cfg0.N : S8192x1.Idx → EReal)
        shapeCasts_S8192x1_S8192 : S8192.Idx → EReal) (ix1 r)) = ∑ r : Fin 8192, ((g r : ℝ) : EReal) :=
    Finset.sum_congr rfl (fun r _ => (shapeCast_a1_a_apply (α := EReal) _ _ r).trans (hG r))
  exact congrArg (fun s : EReal => Ideal.div (0 + s) (Ideal.ofBits .f32 0x46000000#32)) hs

end Cert.KernelIdeal.Host

end
-- ==== Proof.Pieces.lean ====
/-
  What each control case of the body leaves in the three carried columns and in the output block, as pure functions of
  the point's input blocks and of what the point before left.

  The body keeps, per row of the block, a running maximum `m`, a running shifted exponential sum `l` and a running
  picked logit `s`. At the first vocabulary tile of a row block they are reset (to `-∞`, `0`, `0`) before the
  update; at the last one the block of losses `-(s - (m + log l))` is stored. So:
  first tile     m ← max(-∞, tile max),  l ← exp(-∞ - m)·0 + tile sum,  s ← 0 + tile pick;
  later tiles    the same from the carried `m`, `l`, `s`;
  last tile      also the output block, from the three NEW columns.
-/
import proofs.«408208_j28467043238067_3_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen Cert.KernelIdeal.Facts₀

variable {F : FTy → Type} [FloatOps F]

/-- The stores and loads of the three columns and of the output block all go through the whole `512 × 1` rectangle at
    offset zero. -/
theorem off_zero : (![0, 0] : Fin 2 → ℕ) = fun _ => 0 :=
  funext fun a => by match a with | ⟨0, _⟩ => rfl | ⟨1, _⟩ => rfl

section
variable (c : Dev nD) (i : grid0.Coords) (arg2 : Memref sig .tc .vmem S512x3200 .f32) (harg2 : arg2.IsWhole)
  (arg3 : Memref sig .tc .vmem S512x1 .i32) (harg3 : arg3.IsWhole) (arg4 : Memref sig .tc .vmem S512x1 .f32) (harg4 : arg4.IsWhole)
  (arg5 : Memref sig .tc .vmem S512x1 .f32) (harg5 : arg5.IsWhole) (arg6 : Memref sig .tc .vmem S512x1 .f32) (harg6 : arg6.IsWhole)
  (arg7 : Memref sig .tc .vmem S512x1 .f32) (harg7 : arg7.IsWhole)
  (x0 : Vec F S512x3200 .f32) (x1 : Vec F S512x1 .i32) (xs0 xs1 xs2 : Vec F S512x1 .f32)

/-! ## The first tile of a row block: reset, then update -/

/-- The running maximum after the first tile: the tile's maximum against the reset value. -/
theorem first_m (hc0 : cond0_0 i) (hc1 : ¬cond0_1 i) :
    sout0_A_0 (F := F) c i arg2 harg2 arg3 harg3 arg4 harg4 arg5 harg5 arg6 harg6 arg7 harg7 hc0 hc1 x0 x1 = k0_pay8 x0 k0_pay3 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S512x1) off_zero]
  simp only [View.readAt_eq_ld, harg2.read_unread, harg3.read_unread, harg5.read_unread, harg6.read_unread, harg7.read_unread,
    View.ld_unit_zero (S := S512x3200) off_zero, View.ld_unit_zero (S := S512x1) off_zero,
    View.readCov_unit_zero (S := S512x1) _ off_zero]

/-- The running exponential sum after the first tile. -/
theorem first_l (hc0 : cond0_0 i) (hc1 : ¬cond0_1 i) :
    sout0_A_1 (F := F) c i arg2 harg2 arg3 harg3 arg4 harg4 arg5 harg5 arg6 harg6 arg7 harg7 hc0 hc1 x0 x1 = k0_pay7 x0 k0_pay3 k0_pay4 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S512x1) off_zero]
  simp only [View.readAt_eq_ld, harg2.read_unread, harg3.read_unread, harg5.read_unread, harg6.read_unread, harg7.read_unread,
    View.ld_unit_zero (S := S512x3200) off_zero, View.ld_unit_zero (S := S512x1) off_zero,
    View.readCov_unit_zero (S := S512x1) _ off_zero]

/-- The running picked logit after the first tile. -/
theorem first_s (hc0 : cond0_0 i) (hc1 : ¬cond0_1 i) :
    sout0_A_2 (F := F) c i arg2 harg2 arg3 harg3 arg4 harg4 arg5 harg5 arg6 harg6 arg7 harg7 hc0 hc1 x0 x1 = k0_pay1 (k0_pay9 i x0 x1) k0_pay5 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S512x1) off_zero]
  simp only [View.readAt_eq_ld, harg2.read_unread, harg3.read_unread, harg5.read_unread, harg6.read_unread, harg7.read_unread,
    View.ld_unit_zero (S := S512x3200) off_zero, View.ld_unit_zero (S := S512x1) off_zero,
    View.readCov_unit_zero (S := S512x1) _ off_zero]

/-! ## A tile that is neither first nor last: update what the tile before left -/

/-- The running maximum: the tile's maximum against the carried one. -/
theorem later_m (hc0 : ¬cond0_0 i) (hc1 : ¬cond0_1 i) :
    sout0_B_0 (F := F) c i arg2 harg2 arg3 harg3 arg4 harg4 arg5 harg5 arg6 harg6 arg7 harg7 hc0 hc1 x0 x1 xs0 xs1 xs2 = k0_pay8 x0 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S512x1) off_zero]
  simp only [View.readAt_eq_ld, harg2.read_unread, harg3.read_unread, harg5.read_unread, harg6.read_unread, harg7.read_unread,
    View.ld_unit_zero (S := S512x3200) off_zero, View.ld_unit_zero (S := S512x1) off_zero,
    View.readCov_unit_zero (S := S512x1) _ off_zero]

/-- The running exponential sum: the carried one rescaled, plus the tile's. -/
theorem later_l (hc0 : ¬cond0_0 i) (hc1 : ¬cond0_1 i) :
    sout0_B_1 (F := F) c i arg2 harg2 arg3 harg3 arg4 harg4 arg5 harg5 arg6 harg6 arg7 harg7 hc0 hc1 x0 x1 xs0 xs1 xs2 = k0_pay7 x0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S512x1) off_zero]
  simp only [View.readAt_eq_ld, harg2.read_unread, harg3.read_unread, harg5.read_unread, harg6.read_unread, harg7.read_unread,
    View.ld_unit_zero (S := S512x3200) off_zero, View.ld_unit_zero (S := S512x1) off_zero,
    View.readCov_unit_zero (S := S512x1) _ off_zero]

/-- The running picked logit: the carried one plus the tile's pick. -/
theorem later_s (hc0 : ¬cond0_0 i) (hc1 : ¬cond0_1 i) :
    sout0_B_2 (F := F) c i arg2 harg2 arg3 harg3 arg4 harg4 arg5 harg5 arg6 harg6 arg7 harg7 hc0 hc1 x0 x1 xs0 xs1 xs2 = k0_pay1 (k0_pay9 i x0 x1) xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero (S := S512x1) off_zero]
  simp only [View.readAt_eq_ld, harg2.read_unread, harg3.read_unread, harg5.read_unread, harg6.read_unread, harg7.read_unread,
    View.ld_unit_zero (S := S512x3200) off_zero, View.ld_unit_zero (S := S512x1) off_zero,
    View.readCov_unit_zero (S := S512x1) _ off_zero]

/-! ## The last tile: the same update, then the block of losses from the three new columns -/

/-- The running maximum after the last tile. -/
theorem last_m (hc0 : ¬cond0_0 i) (hc1 : cond0_1 i) :
    sout0_C_0 (F := F) c i arg2 harg2 arg3 harg3 arg4 harg4 arg5 harg5 arg6 harg6 arg7 harg7 hc0 hc1 x0 x1 xs0 xs1 xs2 = k0_pay8 x0 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S512x1) off_zero]
  simp only [View.readAt_eq_ld, harg2.read_unread, harg3.read_unread, harg5.read_unread, harg6.read_unread, harg7.read_unread,
    View.ld_unit_zero (S := S512x3200) off_zero, View.ld_unit_zero (S := S512x1) off_zero,
    View.readCov_unit_zero (S := S512x1) _ off_zero]

/-- The running exponential sum after the last tile. -/
theorem last_l (hc0 : ¬cond0_0 i) (hc1 : cond0_1 i) :
    sout0_C_1 (F := F) c i arg2 harg2 arg3 harg3 arg4 harg4 arg5 harg5 arg6 harg6 arg7 harg7 hc0 hc1 x0 x1 xs0 xs1 xs2 = k0_pay7 x0 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S512x1) off_zero]
  simp only [View.readAt_eq_ld, harg2.read_unread, harg3.read_unread, harg5.read_unread, harg6.read_unread, harg7.read_unread,
    View.ld_unit_zero (S := S512x3200) off_zero, View.ld_unit_zero (S := S512x1) off_zero,
    View.readCov_unit_zero (S := S512x1) _ off_zero]

/-- The running picked logit after the last tile. -/
theorem last_s (hc0 : ¬cond0_0 i) (hc1 : cond0_1 i) :
    sout0_C_2 (F := F) c i arg2 harg2 arg3 harg3 arg4 harg4 arg5 harg5 arg6 harg6 arg7 harg7 hc0 hc1 x0 x1 xs0 xs1 xs2 = k0_pay1 (k0_pay9 i x0 x1) xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S512x1) off_zero]
  simp only [View.readAt_eq_ld, harg2.read_unread, harg3.read_unread, harg5.read_unread, harg6.read_unread, harg7.read_unread,
    View.ld_unit_zero (S := S512x3200) off_zero, View.ld_unit_zero (S := S512x1) off_zero,
    View.readCov_unit_zero (S := S512x1) _ off_zero]

/-- The block of losses the last tile stores: from the maximum, the exponential sum and the picked logit it has just updated. -/
theorem last_out (hc0 : ¬cond0_0 i) (hc1 : cond0_1 i) :
    out0_C_2 (F := F) c i arg2 harg2 arg3 harg3 arg4 harg4 arg5 harg5 arg6 harg6 arg7 harg7 hc0 hc1 x0 x1 xs0 xs1 xs2 = k0_pay2 (k0_pay8 x0 xs0) (k0_pay7 x0 xs0 xs1) (k0_pay1 (k0_pay9 i x0 x1) xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero (S := S512x1) off_zero]
  simp only [View.readAt_eq_ld, harg2.read_unread, harg3.read_unread, harg5.read_unread, harg6.read_unread, harg7.read_unread,
    View.ld_unit_zero (S := S512x3200) off_zero, View.ld_unit_zero (S := S512x1) off_zero,
    View.readCov_unit_zero (S := S512x1) _ off_zero]

end

end Cert.KernelIdeal.Pieces

end
-- ==== Proof.Payload.lean ====
/-
  The kernel body's payloads read at an index, at the ideal values: each is the streamed cross entropy's step
  (Spec.lean) on the row's numbers.
-/
import proofs.«408208_j28467043238067_3_alg».proof.Proof.Gen.KernelIdeal.Skeleton
import proofs.«408208_j28467043238067_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.Pay

open Idealize.ShloMosaic Idealize.ShloMosaic.ValueIdx Cert.CrossEntropy
open Cert.KernelIdeal Cert.KernelIdeal.Gen
open scoped BigOperators

/-- A column vector cast from a vector reads, at row `p`, the vector at `p`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the lanes reads, at `(p, q)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay3_apply (p : Fin 512) : k0_pay3 (F := Ideal) (ix2 p 0) = (⊥ : EReal) := by
  unfold k0_pay3
  rw [shapeCast_self]
  show Ideal.ofBits .f32 0xFF800000#32 = ⊥
  exact ofBits_neg_inf

theorem pay4_apply (p : Fin 512) : k0_pay4 (F := Ideal) (ix2 p 0) = (0 : EReal) := by
  unfold k0_pay4
  rw [shapeCast_self]
  show Ideal.ofBits .f32 0x00000000#32 = 0
  exact Ideal.ofBits_zero_f32

theorem pay5_apply (p : Fin 512) : k0_pay5 (F := Ideal) (ix2 p 0) = (0 : EReal) := by
  unfold k0_pay5
  rw [shapeCast_self]
  show Ideal.ofBits .f32 0x00000000#32 = 0
  exact Ideal.ofBits_zero_f32

theorem pay1_apply (v35 : FVec Ideal S512x1 .f32) (v36 : Vec Ideal S512x1 .f32) (p : Fin 512) :
    k0_pay1 (F := Ideal) v35 v36 (ix2 p 0) = v36 (ix2 p 0) + v35 (ix2 p 0) := by
  unfold k0_pay1
  rw [shapeCast_self]
  rfl

theorem pay2_apply (v44 v45 v48 : Vec Ideal S512x1 .f32) (p : Fin 512) :
    k0_pay2 (F := Ideal) v44 v45 v48 (ix2 p 0)
      = (0 : EReal) - (v48 (ix2 p 0) - (v44 (ix2 p 0) + Ideal.log (v45 (ix2 p 0)))) := by
  unfold k0_pay2
  show Ideal.ofBits .f32 0x00000000#32 - (v48 (ix2 p 0) - (v44 (ix2 p 0) + Ideal.log (v45 (ix2 p 0)))) = _
  rw [Ideal.ofBits_zero_f32]

/-- The row index with a lane put back in is the pair. -/
theorem lift_eq (h : S512x3200.Reduces [1] S512) (p : Fin 512) (q : Fin 3200) :
    h.lift (ix1 p) q = ix2 p q := by
  funext a
  apply Fin.ext
  match a with
  | ⟨0, _⟩ => rfl
  | ⟨1, _⟩ => rfl

/-- The tile's row maximum, as a column: the fold of `max` from `-∞` over the row's lanes. -/
theorem rowMax_apply (v3 : Vec Ideal S512x3200 .f32) (h : S512x3200.Reduces [1] S512) (hφ : FKind.Formats .f32)
    (hacc : (0xFF800000#32 : BitVec 32) = FKind.maximumf.neutral .f32 hφ) (hc : S512.ShapeCasts S512x1) (p : Fin 512) :
    shapeCast S512x1 (multiReduction (F := Ideal) .maximumf [1] S512 v3 0xFF800000#32 h hφ hacc) hc (ix2 p 0)
      = (Finset.univ : Finset (Fin 3200)).fold max (⊥ : EReal) (fun q : Fin 3200 => v3 (ix2 p q)) := by
  refine (shapeCast_a_a1_apply _ _ p 0).trans ?_
  refine (Ideal.multiReduction_maximumf_single _ _ _ _ _ _).trans ?_
  rw [Ideal.ofBits_def, ofBits_neg_inf]
  show (Finset.univ : Finset (Fin 3200)).fold max (⊥ : EReal) _ = _
  congr 1
  funext q
  exact congrArg v3 (lift_eq _ p q)

theorem pay6_apply (v3 : Vec Ideal S512x3200 .f32) (v6 : Vec Ideal S512x1 .f32) (p : Fin 512) :
    k0_pay6 (F := Ideal) v3 v6 (ix2 p 0) = stepM (v6 (ix2 p 0)) (fun q : Fin 3200 => v3 (ix2 p q)) := by
  unfold k0_pay6 stepM
  exact congrArg (max (v6 (ix2 p 0))) (rowMax_apply v3 _ _ _ _ p)

theorem pay8_apply (v3 : Vec Ideal S512x3200 .f32) (v6 : Vec Ideal S512x1 .f32) (p : Fin 512) :
    k0_pay8 (F := Ideal) v3 v6 (ix2 p 0) = stepM (v6 (ix2 p 0)) (fun q : Fin 3200 => v3 (ix2 p q)) := by
  unfold k0_pay8
  rw [shapeCast_self]
  exact pay6_apply v3 v6 p

/-- A tile's row sum, as a column: the sum over the row's lanes. -/
theorem rowSum_apply (x : Vec Ideal S512x3200 .f32) (h : S512x3200.Reduces [1] S512) (hφ : FKind.Formats .f32)
    (hacc : (0x00000000#32 : BitVec 32) = FKind.add.neutral .f32 hφ) (hc : S512.ShapeCasts S512x1) (p : Fin 512) :
    shapeCast S512x1 (multiReduction (F := Ideal) .add [1] S512 x 0x00000000#32 h hφ hacc) hc (ix2 p 0)
      = ∑ q : Fin 3200, x (ix2 p q) := by
  refine (shapeCast_a_a1_apply _ _ p 0).trans ?_
  refine (Ideal.multiReduction_add_single _ _ _ _ _ _).trans ?_
  show ∑ q : Fin 3200, _ = _
  refine Finset.sum_congr rfl fun q _ => ?_
  exact congrArg x (lift_eq _ p q)

theorem pay7_apply (v3 : Vec Ideal S512x3200 .f32) (v6 v13 : Vec Ideal S512x1 .f32) (p : Fin 512) :
    k0_pay7 (F := Ideal) v3 v6 v13 (ix2 p 0)
      = stepL (v6 (ix2 p 0)) (v13 (ix2 p 0)) (fun q : Fin 3200 => v3 (ix2 p q)) := by
  unfold k0_pay7 stepL
  rw [shapeCast_self]
  refine (addf_apply _ _ _).trans ?_
  refine congrArg₂ (· + ·) ?_ ?_
  · show Ideal.exp (v6 (ix2 p 0) - k0_pay6 v3 v6 (ix2 p 0)) * v13 (ix2 p 0) = _
    rw [pay6_apply]
  · refine (rowSum_apply _ _ _ _ _ p).trans ?_
    refine Finset.sum_congr rfl fun q _ => ?_
    show Ideal.exp (v3 (ix2 p q) - broadcastTo S512x3200 (k0_pay6 v3 v6) _ (ix2 p q)) = _
    rw [broadcastTo_a1_ab_apply, pay6_apply]

/-- A comparison of integer vectors at an index is the comparison of the elements. -/
theorem cmpi_apply {s : Shape} {w : ℕ} (c : CmpIPredicate) (x y : IVec s w) (j : s.Idx) :
    cmpi c x y j = IntOp.cmpi c (x j) (y j) := rfl

/-- Two words compare equal exactly when they are equal. -/
theorem cmpi_eq_one_iff (a b : BitVec 32) : IntOp.cmpi .eq a b = 1#1 ↔ a = b := by
  show BitVec.ofBool (a == b) = 1#1 ↔ a = b
  by_cases h : a = b
  · subst h; simp
  · rw [beq_false_of_ne h]
    exact ⟨fun h' => absurd h' (by decide), fun h' => absurd h' h⟩

/-- A select on the comparison of two words is the choice on their equality. -/
theorem select_cmpi_eq {α : Type} (a b : BitVec 32) (x y : α) :
    Scalar.select (IntOp.cmpi .eq a b) x y = if decide (a = b) = true then x else y := by
  by_cases h : a = b
  · rw [(cmpi_eq_one_iff a b).2 h, select_one, if_pos (decide_eq_true h)]
  · rw [eq_zero_of_ne_one (fun h' => h ((cmpi_eq_one_iff a b).1 h')), select_zero, if_neg (by simpa using h)]

theorem pay9_apply (i : grid0.Coords) (v3 : Vec Ideal S512x3200 .f32) (v24 : Vec Ideal S512x1 .i32) (p : Fin 512) :
    k0_pay9 (F := Ideal) i v3 v24 (ix2 p 0)
      = ∑ q : Fin 3200, if hitAt (v24 (ix2 p 0)) (i 1).val q then v3 (ix2 p q) else 0 := by
  unfold k0_pay9
  refine (rowSum_apply _ _ _ _ _ p).trans ?_
  refine Finset.sum_congr rfl fun q _ => ?_
  refine (select_apply _ _ _ _).trans ?_
  rw [cmpi_apply, iota_single_apply, broadcastTo_a1_ab_apply, shapeCast_self]
  refine (select_cmpi_eq _ _ _ _).trans ?_
  show (if decide (BitVec.ofNat 32 q.val = v24 (ix2 p 0) - BitVec.ofNat 32 (i 1).val * 3200#32) = true
      then v3 (ix2 p q) else Ideal.ofBits .f32 0x00000000#32) = _
  rw [Ideal.ofBits_zero_f32]
  rfl

end Cert.KernelIdeal.Pay

end
-- ==== Proof.KernelValue.lean ====
/-
  What the streamed kernel leaves in its result array, and its mean.

  The grid has 16 row blocks of 512 rows, each walked in 10 vocabulary tiles of 3200 columns; point `t` is tile
  `t % 10` of row block `t / 10`. Down the 512 rows of a block the body carries a running maximum, a running shifted
  exponential sum and a running picked logit; after tile `k` they are, row by row, the streamed state of the row's
  first `(k + 1) · 3200` columns (by induction on the point: the first tile from the reset values, a later tile from
  what the tile before left). At the last tile the block of losses `-(s - (m + log l))` is written back, so the
  result column holds every row's loss `log ∑ exp x - x[target]`, and the lines after the region take its mean.
-/
import proofs.«408208_j28467043238067_3_alg».proof.Proof.Gen.KernelIdeal.Frame
import proofs.«408208_j28467043238067_3_alg».proof.Proof.Pieces
import proofs.«408208_j28467043238067_3_alg».proof.Proof.Payload
import proofs.«408208_j28467043238067_3_alg».proof.Proof.Spec
import proofs.«408208_j28467043238067_3_alg».proof.Proof.KernelHost
import Idealize.ShloMosaic.Lib.Pipeline.Value
import Idealize.ShloMosaic.Lib.ValueIdx

set_option maxRecDepth 16384

noncomputable section

namespace Cert.KernelIdeal.Rows

open Idealize.ShloMosaic Idealize.ShloMosaic.TcCoe Idealize.SL.Sem Idealize.ShloMosaic.ValueIdx
open Idealize.ShloMosaic.Pipeline (Dat)
open Cert.KernelIdeal Cert.KernelIdeal.Gen Cert.CrossEntropy

variable (m : (ℓ : Loc nD τ sig) → Buf (Elt Ideal) ℓ) (ρ : Dev nD → PrngReg)

/-- The logits block and the targets block of point `t`, at their literal types. -/
abbrev xblk (c : Dev nD) (t : Fin cfg0.N) : Vec Ideal S512x3200 .f32 := iblk m c 0 t
abbrev tblk (c : Dev nD) (t : Fin cfg0.N) : Vec Ideal S512x1 .i32 := iblk m c 1 t

/-- The printed index maps over the grid: point `t` is row block `t / 10`, vocabulary tile `t % 10`. -/
theorem idx_facts : ∀ t : Fin cfg0.N, win0_0.index t (0 : Fin 2) = t.val / 10 ∧ win0_0.index t (1 : Fin 2) = t.val % 10
    ∧ win0_1.index t (0 : Fin 2) = t.val / 10 ∧ win0_1.index t (1 : Fin 2) = 0
    ∧ win0_2.index t (0 : Fin 2) = t.val / 10 ∧ win0_2.index t (1 : Fin 2) = 0
    ∧ ((grid0.coords t) 1).val = t.val % 10 :=
  (by decide +kernel : ∀ t : Fin grid0.N, _)

/-- Entry `(p, q)` of point `t`'s logits block is the logits array at row `(t / 10) · 512 + p`, column
    `(t % 10) · 3200 + q`. -/
theorem xblk_apply (c : Dev nD) (t : Fin cfg0.N) (p : Fin 512) (q : Fin 3200) (r : Fin 8192) (j : Fin 32000)
    (hr : r.val = t.val / 10 * 512 + p.val) (hj : j.val = t.val % 10 * 3200 + q.val) :
    xblk m c t (ix2 p q) = (V m c main_arg0 : S8192x32000.Idx → EReal) (ix2 r j) := by
  obtain ⟨e0, e1, -⟩ := idx_facts t
  show iblk m c 0 t (ix2 p q) = _
  unfold iblk
  rw [View.read_apply]
  show V m c main_arg0 _ = V m c main_arg0 _
  congr 1
  funext a
  apply Fin.ext
  match a with
  | ⟨0, _⟩ => show win0_0.index t 0 * 512 + 1 * p.val = r.val; omega
  | ⟨1, _⟩ => show win0_0.index t 1 * 3200 + 1 * q.val = j.val; omega

/-- Entry `(p, 0)` of point `t`'s targets block is the targets column at row `(t / 10) · 512 + p`. -/
theorem tblk_apply (c : Dev nD) (t : Fin cfg0.N) (p : Fin 512) (r : Fin 8192) (hr : r.val = t.val / 10 * 512 + p.val) :
    tblk m c t (ix2 p 0) = (V m c main_v0 : S8192x1.Idx → BitVec 32) (ix2 r 0) := by
  obtain ⟨-, -, e2, e3, -⟩ := idx_facts t
  show iblk m c 1 t (ix2 p 0) = _
  unfold iblk
  rw [View.read_apply]
  show V m c main_v0 _ = V m c main_v0 _
  congr 1
  funext a
  apply Fin.ext
  match a with
  | ⟨0, _⟩ => show win0_1.index t 0 * 512 + 1 * p.val = r.val; omega
  | ⟨1, _⟩ => show win0_1.index t 1 * 1 + 1 * 0 = 0; omega

/-! ## The inputs as reals, and the state of a block's rows -/

variable (xs : Dev nD → ℕ → ℕ → ℝ) (tw : Dev nD → ℕ → BitVec 32)

/-- What is assumed of the arrays the region finds: the logits are the reals `xs`, the targets column holds the words
    `tw`, every target names a column. -/
structure Inputs (c : Dev nD) : Prop where
  hx : ∀ (r : Fin 8192) (j : Fin 32000),
    (V m c main_arg0 : S8192x32000.Idx → EReal) (ix2 r j) = ((xs c r.val j.val : ℝ) : EReal)
  ht : ∀ r : Fin 8192, (V m c main_v0 : S8192x1.Idx → BitVec 32) (ix2 r 0) = tw c r.val
  hlt : ∀ r : Fin 8192, (tw c r.val).toNat < 32000

/-- Down the 512 rows of row block `i`, the three columns `M`, `L`, `S` are the streamed state of each row after
    its first `k + 1` tiles. -/
def RowsOk (c : Dev nD) (i k : ℕ) (M L S : Vec Ideal S512x1 .f32) : Prop :=
  ∀ p : Fin 512, Streamed (xs c (i * 512 + p.val)) (tw c (i * 512 + p.val)).toNat ((k + 1) * 3200)
    (M (ix2 p 0)) (L (ix2 p 0)) (S (ix2 p 0))

variable {m xs tw}

/-- The tile of point `t` in row `p` of its block: the row's reals at the tile's columns. -/
theorem tile_entry {c : Dev nD} (hI : Inputs m xs tw c) (t : Fin cfg0.N) (p : Fin 512) (q : Fin 3200) :
    xblk m c t (ix2 p q) = ((xs c (t.val / 10 * 512 + p.val) (t.val % 10 * 3200 + q.val) : ℝ) : EReal) := by
  have hN : cfg0.N = 160 := N_0
  have ht := t.isLt
  have hr : t.val / 10 * 512 + p.val < 8192 := by have := p.isLt; omega
  have hj : t.val % 10 * 3200 + q.val < 32000 := by have := q.isLt; omega
  rw [xblk_apply m c t p q ⟨_, hr⟩ ⟨_, hj⟩ rfl rfl]
  exact hI.hx ⟨_, hr⟩ ⟨_, hj⟩

/-- The mask of point `t` in row `p` keeps lane `q` exactly when the tile's column `q` is the row's target. -/
theorem tile_hit {c : Dev nD} (hI : Inputs m xs tw c) (t : Fin cfg0.N) (p : Fin 512) (q : Fin 3200) :
    hitAt (tblk m c t (ix2 p 0)) ((grid0.coords t) 1).val q = true
      ↔ t.val % 10 * 3200 + q.val = (tw c (t.val / 10 * 512 + p.val)).toNat := by
  have hN : cfg0.N = 160 := N_0
  have ht := t.isLt
  have hr : t.val / 10 * 512 + p.val < 8192 := by have := p.isLt; omega
  obtain ⟨-, -, -, -, -, -, e6⟩ := idx_facts t
  rw [tblk_apply m c t p ⟨_, hr⟩ rfl, hI.ht ⟨_, hr⟩, e6]
  unfold hitAt
  rw [decide_eq_true_iff]
  exact lane_hits _ (hI.hlt ⟨_, hr⟩) _ _ (by omega) q.isLt

/-- THE FIRST TILE of a row block leaves the streamed state of the first 3200 columns. -/
theorem rows_first {c : Dev nD} (hI : Inputs m xs tw c) (t : Fin cfg0.N) (h0 : t.val % 10 = 0) :
    RowsOk xs tw c (t.val / 10) 0 (k0_pay8 (xblk m c t) (k0_pay3 (F := Ideal))) (k0_pay7 (xblk m c t) (k0_pay3 (F := Ideal)) (k0_pay4 (F := Ideal)))
      (k0_pay1 (k0_pay9 (grid0.coords t) (xblk m c t) (tblk m c t)) (k0_pay5 (F := Ideal))) := by
  intro p
  rw [Pay.pay8_apply, Pay.pay7_apply, Pay.pay1_apply, Pay.pay9_apply, Pay.pay3_apply, Pay.pay4_apply, Pay.pay5_apply]
  have h := Streamed.first (f := xs c (t.val / 10 * 512 + p.val)) (t := (tw c (t.val / 10 * 512 + p.val)).toNat)
    (w := 3200) (by norm_num) (fun q : Fin 3200 => xblk m c t (ix2 p q))
    (fun q => hitAt (tblk m c t (ix2 p 0)) ((grid0.coords t) 1).val q)
    (fun q => by rw [tile_entry hI t p q, h0]; simp)
    (fun q => by rw [tile_hit hI t p q, h0]; simp)
  exact h

/-- A LATER TILE takes the streamed state of the first `(k + 1) · 3200` columns to that of the first
    `(k + 2) · 3200`. -/
theorem rows_step {c : Dev nD} (hI : Inputs m xs tw c) (t : Fin cfg0.N) (k : ℕ) (hk : t.val % 10 = k + 1)
    (M L S : Vec Ideal S512x1 .f32) (h : RowsOk xs tw c (t.val / 10) k M L S) :
    RowsOk xs tw c (t.val / 10) (k + 1) (k0_pay8 (xblk m c t) M) (k0_pay7 (xblk m c t) M L)
      (k0_pay1 (k0_pay9 (grid0.coords t) (xblk m c t) (tblk m c t)) S) := by
  intro p
  rw [Pay.pay8_apply, Pay.pay7_apply, Pay.pay1_apply, Pay.pay9_apply]
  have h' := (h p).step (w := 3200) (fun q : Fin 3200 => xblk m c t (ix2 p q))
    (fun q => hitAt (tblk m c t (ix2 p 0)) ((grid0.coords t) 1).val q)
    (fun q => by rw [tile_entry hI t p q, hk])
    (fun q => by rw [tile_hit hI t p q, hk])
  have e : (k + 1 + 1) * 3200 = (k + 1) * 3200 + 3200 := by ring
  rw [e]
  exact h'

variable (m)

/-! ## What the three columns hold after each point -/

/-- After a first tile: the reset values updated by the tile. -/
theorem scr_first (c : Dev nD) (t : Fin cfg0.N) (h0 : t.val % 10 = 0) :
    (outsAt0 m c t.val t.isLt).2.1 = k0_pay8 (xblk m c t) (k0_pay3 (F := Ideal))
      ∧ (outsAt0 m c t.val t.isLt).2.2.1 = k0_pay7 (xblk m c t) (k0_pay3 (F := Ideal)) (k0_pay4 (F := Ideal))
      ∧ (outsAt0 m c t.val t.isLt).2.2.2 = k0_pay1 (k0_pay9 (grid0.coords t) (xblk m c t) (tblk m c t)) (k0_pay5 (F := Ideal)) := by
  have h1 : ¬t.val % 10 = 9 := by omega
  rw [outsAt0_A m c t h0 h1]
  dsimp only
  exact ⟨Pieces.first_m (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _,
    Pieces.first_l (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _,
    Pieces.first_s (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _⟩

/-- After a tile that is neither first nor last: what the tile before left, updated by the tile. -/
theorem scr_later (c : Dev nD) (t : Fin cfg0.N) (h0 : ¬t.val % 10 = 0) (h1 : ¬t.val % 10 = 9) (hp : t.val - 1 < cfg0.N) :
    (outsAt0 m c t.val t.isLt).2.1 = k0_pay8 (xblk m c t) (outsAt0 m c (t.val - 1) hp).2.1
      ∧ (outsAt0 m c t.val t.isLt).2.2.1 = k0_pay7 (xblk m c t) (outsAt0 m c (t.val - 1) hp).2.1 (outsAt0 m c (t.val - 1) hp).2.2.1
      ∧ (outsAt0 m c t.val t.isLt).2.2.2
        = k0_pay1 (k0_pay9 (grid0.coords t) (xblk m c t) (tblk m c t)) (outsAt0 m c (t.val - 1) hp).2.2.2 := by
  rw [outsAt0_B m c t h0 h1]
  dsimp only
  exact ⟨Pieces.later_m (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _ _ _ _,
    Pieces.later_l (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _ _ _ _,
    Pieces.later_s (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _ _ _ _⟩

/-- After a last tile: the same update, and the block of losses from the three updated columns. -/
theorem scr_last (c : Dev nD) (t : Fin cfg0.N) (h0 : ¬t.val % 10 = 0) (h1 : t.val % 10 = 9) (hp : t.val - 1 < cfg0.N) :
    (outsAt0 m c t.val t.isLt).2.1 = k0_pay8 (xblk m c t) (outsAt0 m c (t.val - 1) hp).2.1
      ∧ (outsAt0 m c t.val t.isLt).2.2.1 = k0_pay7 (xblk m c t) (outsAt0 m c (t.val - 1) hp).2.1 (outsAt0 m c (t.val - 1) hp).2.2.1
      ∧ (outsAt0 m c t.val t.isLt).2.2.2
        = k0_pay1 (k0_pay9 (grid0.coords t) (xblk m c t) (tblk m c t)) (outsAt0 m c (t.val - 1) hp).2.2.2
      ∧ (outsAt0 m c t.val t.isLt).1 = k0_pay2 (outsAt0 m c t.val t.isLt).2.1 (outsAt0 m c t.val t.isLt).2.2.1
          (outsAt0 m c t.val t.isLt).2.2.2 := by
  rw [outsAt0_C m c t h0 h1]
  dsimp only
  refine ⟨Pieces.last_m (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _ _ _ _,
    Pieces.last_l (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _ _ _ _,
    Pieces.last_s (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _ _ _ _, ?_⟩
  rw [Pieces.last_m (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _ _ _ _,
    Pieces.last_l (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _ _ _ _,
    Pieces.last_s (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _ _ _ _]
  exact Pieces.last_out (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (xblk m c t) (tblk m c t) _ _ _ _ _

/-- THE INDUCTION over the points: after point `n` the three columns are the streamed state of the block's rows after
    `n % 10 + 1` tiles. -/
theorem rows_at {xs tw} (c : Dev nD) (hI : Inputs m xs tw c) :
    ∀ (n : ℕ) (h : n < cfg0.N), RowsOk xs tw c (n / 10) (n % 10)
      (outsAt0 m c n h).2.1 (outsAt0 m c n h).2.2.1 (outsAt0 m c n h).2.2.2 := by
  intro n
  induction n with
  | zero =>
    intro h
    obtain ⟨e0, e1, e2⟩ := scr_first m c ⟨0, h⟩ rfl
    have := rows_first hI ⟨0, h⟩ rfl
    dsimp only at e0 e1 e2 this
    rw [e0, e1, e2]
    exact this
  | succ n ih =>
    intro h
    have hp : n < cfg0.N := Nat.lt_of_succ_lt h
    by_cases h0 : (n + 1) % 10 = 0
    · obtain ⟨e0, e1, e2⟩ := scr_first m c ⟨n + 1, h⟩ h0
      have := rows_first hI ⟨n + 1, h⟩ h0
      dsimp only at e0 e1 e2 this
      rw [e0, e1, e2, h0]
      exact this
    · have hk : (n + 1) % 10 = n % 10 + 1 := by omega
      have hi : (n + 1) / 10 = n / 10 := by omega
      have ihn := ih hp
      have step := rows_step hI ⟨n + 1, h⟩ (n % 10) hk _ _ _ (by dsimp only; rw [hi]; exact ihn)
      dsimp only at step
      by_cases h1 : (n + 1) % 10 = 9
      · obtain ⟨e0, e1, e2, -⟩ := scr_last m c ⟨n + 1, h⟩ h0 h1 hp
        dsimp only at e0 e1 e2
        rw [e0, e1, e2, hk]
        exact step
      · obtain ⟨e0, e1, e2⟩ := scr_later m c ⟨n + 1, h⟩ h0 h1 hp
        dsimp only at e0 e1 e2
        rw [e0, e1, e2, hk]
        exact step

/-- The loss of row `r`: the log-sum-exp of its 32000 logits less the target's. -/
def loss (xs : Dev nD → ℕ → ℕ → ℝ) (tw : Dev nD → ℕ → BitVec 32) (c : Dev nD) (r : Fin 8192) : ℝ :=
  rowLoss (xs c r.val) (tw c r.val).toNat 32000

/-- What a last tile stores: down its block, the rows' losses. -/
theorem out_loss {xs tw} (c : Dev nD) (hI : Inputs m xs tw c) (t : Fin cfg0.N) (h9 : t.val % 10 = 9) (p : Fin 512)
    (r : Fin 8192) (hr : r.val = t.val / 10 * 512 + p.val) :
    (outsAt0 m c t.val t.isLt).1 (ix2 p 0) = ((loss xs tw c r : ℝ) : EReal) := by
  have hN : cfg0.N = 160 := N_0
  have ht := t.isLt
  obtain ⟨-, -, -, e3⟩ := scr_last m c t (by omega) h9 (by omega)
  rw [e3, Pay.pay2_apply]
  have hrow := rows_at m c hI t.val t.isLt p
  rw [h9] at hrow
  have := hrow.loss (hI.hlt ⟨t.val / 10 * 512 + p.val, by have := p.isLt; omega⟩)
  unfold loss
  rw [hr]
  exact this

/-- An index of a `512 × 1` block is its row and the one column. -/
theorem blk_idx (y : S512x1.Idx) : ∃ p : Fin 512, y = ix2 p 0 := by
  refine ⟨⟨(y 0).val, (y 0).isLt⟩, ?_⟩
  funext a
  match a with
  | ⟨0, _⟩ => rfl
  | ⟨1, _⟩ => exact Fin.ext (by have h : (y 1).val < 1 := (y 1).isLt; show (y 1).val = 0; omega)

/-- The same at any index of the block. -/
theorem out_loss' {xs tw} (c : Dev nD) (hI : Inputs m xs tw c) (t : Fin cfg0.N) (h9 : t.val % 10 = 9) (y : S512x1.Idx)
    (r : Fin 8192) (hr : r.val = t.val / 10 * 512 + (y 0).val) :
    (outsAt0 m c t.val t.isLt).1 y = ((loss xs tw c r : ℝ) : EReal) := by
  obtain ⟨p, rfl⟩ := blk_idx y
  exact out_loss m c hI t h9 p r hr

/-- The whole block a last tile stores, as one function of the block's index. -/
theorem out_col {xs tw} (c : Dev nD) (hI : Inputs m xs tw c) (t : Fin cfg0.N) (h9 : t.val % 10 = 9) :
    (outsAt0 m c t.val t.isLt).1 = fun y : S512x1.Idx =>
      ((loss xs tw c ⟨t.val / 10 * 512 + (y 0).val, by
        have hN : cfg0.N = 160 := N_0
        have ht := t.isLt
        have hy : (y 0).val < 512 := (y 0).isLt
        omega⟩ : ℝ) : EReal) :=
  funext fun y => out_loss' m c hI t h9 y _ rfl

/-! ## The result column, and the mean -/

/-- The result column as one function of the inputs: row `r` holds the loss of row `r`. -/
def lossCol (xs : Dev nD → ℕ → ℕ → ℝ) (tw : Dev nD → ℕ → BitVec 32) (c : Dev nD) : S8192x1.Idx → EReal :=
  fun i => ((loss xs tw c ⟨(i 0).val, (i 0).isLt⟩ : ℝ) : EReal)

/-- WHAT A LAST TILE WRITES BACK is its block of the loss column. -/
theorem flushed_eq {xs tw} (c : Dev nD) (hI : Inputs m xs tw c) (t : Fin cfg0.N) (hf : (cfg0.win 2).flush t = true) :
    (dats m 0 c).flushed 2 t = ((cfg0.win 2).blk t).view.read (Elt Ideal) (lossCol xs tw c) := by
  have h9 : t.val % 10 = 9 := (flush0_2 t).mp hf
  have hN : cfg0.N = 160 := N_0
  have ht := t.isLt
  obtain ⟨-, -, -, -, e4, e5, -⟩ := idx_facts t
  show (cfg0.win 2).cut (grid0.coords t) ((dats m 0 c).after 2 t) = _
  rw [after0_2]
  rw [out_col m c hI t h9]
  funext y
  have hy : (y 0).val < 512 := (y 0).isLt
  show ((loss xs tw c ⟨t.val / 10 * 512 + (y 0).val, by omega⟩ : ℝ) : EReal)
    = lossCol xs tw c (((cfg0.win 2).blk t).view.emb y)
  have e : ((((cfg0.win 2).blk t).view.emb y) 0).val = t.val / 10 * 512 + (y 0).val := by
    show win0_2.index t 0 * 512 + 1 * (y 0).val = _
    omega
  exact congrArg (fun r : Fin 8192 => ((loss xs tw c r : ℝ) : EReal)) (Fin.ext e.symm)

/-- An index of the result column is in point `t`'s block iff each coordinate is in the block's range. -/
theorem mem_blk (t : Fin cfg0.N) (i : S8192x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v1).slice (win0_2.rect t)).set ↔ _
  rw [View.set_slice_whole, Rect.mem_set_unit]
  exact Iff.rfl

/-- THE RESULT COLUMN after the run: every row's loss (row `r` is written by the last tile of row block `r / 512`). -/
theorem final_col {xs tw} (c : Dev nD) (hI : Inputs m xs tw c) : (dats m 0 c).arrAt 2 cfg0.N = lossCol xs tw c := by
  have hN : cfg0.N = 160 := N_0
  refine (dats m 0 c).arrAt_eq_of_cover 2 (lossCol xs tw c) (flushed_eq m c hI) fun i => ?_
  have hi0 : (i 0).val < 8192 := (i 0).isLt
  have hi1 : (i 1).val < 1 := (i 1).isLt
  have hlt : (i 0).val / 512 * 10 + 9 < cfg0.N := by omega
  obtain ⟨-, -, -, -, e4, e5, -⟩ := idx_facts ⟨(i 0).val / 512 * 10 + 9, hlt⟩
  dsimp only at e4 e5
  refine ⟨⟨(i 0).val / 512 * 10 + 9, hlt⟩, (flush0_2 _).mpr (by dsimp only; omega), ?_⟩
  rw [mem_blk]
  intro a
  match a with
  | ⟨0, _⟩ =>
    show win0_2.index ⟨(i 0).val / 512 * 10 + 9, hlt⟩ 0 * 512 ≤ (i 0).val
      ∧ (i 0).val < win0_2.index ⟨(i 0).val / 512 * 10 + 9, hlt⟩ 0 * 512 + 512
    omega
  | ⟨1, _⟩ =>
    show win0_2.index ⟨(i 0).val / 512 * 10 + 9, hlt⟩ 1 * 1 ≤ (i 1).val
      ∧ (i 1).val < win0_2.index ⟨(i 0).val / 512 * 10 + 9, hlt⟩ 1 * 1 + 1
    omega

/-- THE RUN, READ: the result is the mean of the rows' losses, and the arguments end as launched. -/
theorem run_value {xs tw} (hI : ∀ c, Inputs m xs tw c) :
    θ_run defs (onTc (τ := τ) (main (F := Ideal))) ⟨m, fun _ => 0, ρ⟩ fun r => ∀ c : Dev nD,
      r.2.mem ((c.tc : Thread nD τ).loc main_v4) = (fun _ => meanLoss (loss xs tw c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      ((h c).2 main_v4 (Pipeline.mem_restRefs_of main_v4 (by decide) (by decide))).trans
        (Host.tail_mean m c (loss xs tw c) fun r => by rw [final_col m c (hI c)]; rfl),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Rows

end
-- ==== Proof.lean ====
/-
  The certificate of a streamed softmax cross entropy against jnp's log_softmax + take_along_axis + mean.

  Inputs: logits `x : f32[8192, 32000]`, targets `t : i32[8192]`; precondition: every logit finite and every target a
  column, `0 ≤ t < 32000` (outside it the two programs differ: jnp wraps a negative index and fills an index past the
  end with NaN, while the kernel's equality mask then picks nothing).

  Both programs compute, at the ideal instance, the mean over the rows `r` of the row's loss
  `log (∑ j, exp x[r, j]) - x[r, t r]`:
  * the kernel walks each block of 512 rows in 10 tiles of 3200 columns, carrying per row a shift `m` (the running
    maximum), the sum `l` of `exp (x - m)` and the picked logit `s`; whatever real shift is carried,
    `m + log l` is the log-sum-exp of the columns seen, so the last tile's `-(s - (m + log l))` is the row's loss
    (by induction on the grid's points), and the lines after the region take the mean;
  * the reference shifts by the row's maximum once, subtracts the log of the shifted exponential sum, reads the result at
    the target (the gather's index is the target itself, and the in-range mask is all ones, under the precondition),
    takes the mean and negates.
  Finiteness of the logits makes every quantity a real number, where the two arrangements are one; the kernel's frames
  are the generated ones, the reference's is its run with the result dropped, and the ideal pass rewrote nothing.
-/
import proofs.«408208_j28467043238067_3_alg».proof.Defs
import proofs.«408208_j28467043238067_3_alg».proof.Proof.Gen.Kernel
import proofs.«408208_j28467043238067_3_alg».proof.Proof.Gen.Kernel.Skeleton
import proofs.«408208_j28467043238067_3_alg».proof.Proof.Gen.Kernel.Launch
import proofs.«408208_j28467043238067_3_alg».proof.Proof.Gen.Kernel.Points
import proofs.«408208_j28467043238067_3_alg».proof.Proof.Gen.Kernel.Frame
import proofs.«408208_j28467043238067_3_alg».proof.Proof.Gen.KernelIdeal
import proofs.«408208_j28467043238067_3_alg».proof.Proof.Gen.KernelIdeal.Skeleton
import proofs.«408208_j28467043238067_3_alg».proof.Proof.Gen.KernelIdeal.Launch
import proofs.«408208_j28467043238067_3_alg».proof.Proof.Gen.KernelIdeal.Points
import proofs.«408208_j28467043238067_3_alg».proof.Proof.Gen.KernelIdeal.Frame
import proofs.«408208_j28467043238067_3_alg».proof.Proof.Gen.ReferenceIdeal
import proofs.«408208_j28467043238067_3_alg».proof.Proof.Gen.Pre_finite_inputs
import proofs.«408208_j28467043238067_3_alg».proof.Proof.RefRun
import proofs.«408208_j28467043238067_3_alg».proof.Proof.RefRead
import proofs.«408208_j28467043238067_3_alg».proof.Proof.RefValue
import proofs.«408208_j28467043238067_3_alg».proof.Proof.PreFacts
import proofs.«408208_j28467043238067_3_alg».proof.Proof.KernelHost
import proofs.«408208_j28467043238067_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.CrossEntropy

/-! ## The inputs as reals -/

/-- The logits as reals (junk `0` outside the array). -/
def logits (m : (ℓ : Loc Cert.KernelIdeal.nD Cert.KernelIdeal.τ Cert.KernelIdeal.sig) → Buf (Elt Ideal) ℓ)
    (c : Dev Cert.KernelIdeal.nD) (r j : ℕ) : ℝ :=
  if h : r < 8192 ∧ j < 32000 then
    ((m ((c.tc : Thread Cert.KernelIdeal.nD Cert.KernelIdeal.τ).loc Cert.KernelIdeal.main_arg0)
      : Cert.KernelIdeal.S8192x32000.Idx → EReal) (ix2 ⟨r, h.1⟩ ⟨j, h.2⟩)).toReal
  else 0

/-- The targets' words by row (junk `0` outside the array). -/
def targets (m : (ℓ : Loc Cert.KernelIdeal.nD Cert.KernelIdeal.τ Cert.KernelIdeal.sig) → Buf (Elt Ideal) ℓ)
    (c : Dev Cert.KernelIdeal.nD) (r : ℕ) : BitVec 32 :=
  if h : r < 8192 then
    (m ((c.tc : Thread Cert.KernelIdeal.nD Cert.KernelIdeal.τ).loc Cert.KernelIdeal.main_arg1)
      : Cert.KernelIdeal.S8192.Idx → BitVec 32) (ix1 ⟨r, h⟩)
  else 0

/-- Under the precondition the region finds the logits at those reals and the targets at those words, each a column. -/
theorem inputs (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Rows.Inputs m (logits m) (targets m) c := by
  obtain ⟨hfin, hrange⟩ := Cert.PreFacts.pre_facts _ _ (hpre c)
  refine ⟨fun r j => ?_, fun r => ?_, fun r => ?_⟩
  · rw [Cert.KernelIdeal.Gen.V_main_arg0 m c]
    obtain ⟨v, hv⟩ := hfin (ix2 r j)
    unfold logits
    rw [dif_pos ⟨r.isLt, j.isLt⟩]
    simp only [Fin.eta]
    rw [hv, EReal.toReal_coe]
  · rw [Cert.KernelIdeal.Host.targets_apply m c r]
    unfold targets
    rw [dif_pos r.isLt]
  · unfold targets
    rw [dif_pos r.isLt]
    exact hrange r

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- At the ideal instance both runs end with the mean of the rows' losses. -/
theorem algebraic : Cert.algebraic_KernelIdeal_ReferenceIdeal := by
  intro m ρ m' ρ' hpre hagree
  refine ⟨fun c => fun _ => meanLoss (Cert.KernelIdeal.Rows.loss (logits m) (targets m) c),
    Cert.KernelIdeal.Rows.run_value m ρ (inputs m hpre), ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  have hI := inputs m hpre c
  refine (Cert.ReferenceIdeal.ReadP.val_main_v6_eq _ _).trans ?_
  refine (Cert.ReferenceIdeal.RefValue.ref_value _ _ (fun r => logits m c r.val) (fun r j => ?_) (fun r => ?_)).trans ?_
  · exact ((Cert.KernelIdeal.Gen.V_main_arg0 m c).symm ▸ hI.hx r j)
  · have := hI.hlt r
    unfold targets at this
    rw [dif_pos r.isLt] at this
    exact this
  · funext _
    congr 1
    funext r
    unfold Cert.KernelIdeal.Rows.loss targets
    rw [dif_pos r.isLt]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
